-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x2048 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S1024x768 .f32) (main_arg3 : FVec F S1024 .f32) (main_arg4 : FVec F S1x2048 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S1x1024 : Shape := ⟨2, ![1, 1024]⟩
abbrev S2x1024 : Shape := ⟨2, ![2, 1024]⟩
abbrev S1x1 : Shape := ⟨2, ![1, 1]⟩
abbrev S16384x1 : Shape := ⟨2, ![16384, 1]⟩
abbrev S2048x768 : Shape := ⟨2, ![2048, 768]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S1x1024, .f32⟩
  | .hbm, ⟨7, _⟩ => ⟨S2x1024, .f32⟩
  | .hbm, ⟨8, _⟩ => ⟨S1x1, .f32⟩
  | .hbm, ⟨9, _⟩ => ⟨S16384x1, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S1024x768, .f32⟩
  | .local _ .vmem, ⟨5, _⟩ => ⟨S1x1024, .f32⟩
  | .local _ .vmem, ⟨6, _⟩ => ⟨S2x1024, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  shapeCasts_S1x2048_S2x1024 : S1x2048.ShapeCasts S2x1024
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x768_S2048x768_0_0 : ∀ a, (![0, 0] : Fin 2 → Nat) a + S2048x768.size a ≤ S2048x768.size a
  h_S2048x768 : 0 < S2048x768.numel
  broadcasts_S1x1024_S2048x1024 : S1x1024.Broadcasts S2048x1024
  inb_S2x1024_S1x1024_0_0 : ∀ a, (![0, 0] : Fin 2 → Nat) a + S1x1024.size a ≤ S2x1024.size a
  inb_S2x1024_S1x1024_1_0 : ∀ a, (![1, 0] : Fin 2 → Nat) a + S1x1024.size a ≤ S2x1024.size a
  reduces_S2048x1024_S2048 : S2048x1024.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x1_S2048x1_0_0 : ∀ a, (![0, 0] : Fin 2 → Nat) a + S2048x1.size a ≤ S2048x1.size a
  h_S2048x1 : 0 < S2048x1.numel
  dot_S2048x768_S1024x768_S2048x1024_1_1_0_0_n_n_wf : DotDims.WF S2048x768 S1024x768 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S16384x768.size a
  hwx0_1 : ∀ i : grid0.Coords, EltTy.bits .f32 = 32 ∨ (Rect.block (s := S16384x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .f32 = 32 ∨ (Rect.block (s := S1024x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1024.size a ≤ S2x1024.size a
  hwx0_4 : ∀ i : grid0.Coords, EltTy.bits .f32 = 32 ∨ (Rect.block (s := S2x1024) S2x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S16384x1.size a
  hwx0_6 : ∀ i : grid0.Coords, EltTy.bits .f32 = 32 ∨ (Rect.block (s := S16384x1) S2048x1.size (cc0_transform_6 i) (hinb0_6 i)).WholeWords (EltTy.packing .f32)

variable [Facts₀]

def dot_S2048x768_S1024x768_S2048x1024_1_1_0_0_n_n : DotDims S2048x768 S1024x768 S2048x1024 where
  lhsContracting := [1]
  rhsContracting := [1]
  lhsNonContracting := [0]
  rhsNonContracting := [0]
  lhsBatch := []
  rhsBatch := []
  wf := dot_S2048x768_S1024x768_S2048x1024_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S1024x768_S16384x1024_1_1_0_0_n_n_wf : DotDims.WF S16384x768 S1024x768 S16384x1024 [1] [1] [0] [0] [] []
  dot_S16384x2048_S1x2048_S16384x1_1_1_0_0_n_n_wf : DotDims.WF S16384x2048 S1x2048 S16384x1 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf
def dot_S16384x2048_S1x2048_S16384x1_1_1_0_0_n_n : DotDims S16384x2048 S1x2048 S16384x1 where
  lhsContracting := [1]
  rhsContracting := [1]
  lhsNonContracting := [0]
  rhsNonContracting := [0]
  lhsBatch := []
  rhsBatch := []
  wf := dot_S16384x2048_S1x2048_S16384x1_1_1_0_0_n_n_wf

class Facts : Prop extends Facts₀ where

variable [Facts]
-- ==== Proof.Spec.lean ====
/-
  The function both programs compute, written once over the argument arrays.

  For a row r and a column h of the weight matrix w, the PRE-ACTIVATION of an input array x is the row's product with
  the weights plus the bias,  a(x) r h = (∑ k < 768, x[r,k] · w[h,k]) + b[h];  it is clamped to [0, 1] and squared.
  The output weight row u has 2048 entries, the first 1024 paired with the first input array and the last 1024 with
  the second, so row r's LOGIT is
      ∑ h < 1024, ( sq(a(xs) r h) · u[h] + sq(a(xn) r h) · u[1024 + h] )  +  c,
  and the result at (r, 0) is the logistic function of it.  A sum over the 2048 entries of a row made of two rows of
  1024 laid side by side is this sum of pairs: `sum_two_halves`, which needs only that addition of extended reals is
  commutative and associative, so nothing here asks the inputs to be finite.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- Entry h of the first half of a row of 2048. -/
abbrev lo (h : Fin 1024) : Fin 2048 := ⟨h.val, Nat.lt_of_lt_of_le h.isLt (by decide)⟩
/-- Entry h of the second half of a row of 2048. -/
abbrev hi (h : Fin 1024) : Fin 2048 := ⟨1024 + h.val, by have := h.isLt; omega⟩

/-- A sum over a row of 2048 is the sum over h < 1024 of its entries h and 1024 + h. -/
theorem sum_two_halves (f : Fin 2048 → EReal) : ∑ k : Fin 2048, f k = ∑ h : Fin 1024, (f (lo h) + f (hi h)) := by
  rw [Finset.sum_add_distrib]
  exact Fin.sum_univ_add (M := EReal) (a := 1024) (b := 1024) f

/-- The word 1.0 denotes the real number one. -/
theorem one_word : Ideal.ofBits .f32 0x3F800000#32 = 1 := by
  simp [Ideal.ofBits, Ideal.ieee, -EReal.coe_mul]; norm_num

/-- Clamp to [0, 1] (the maximum with 0.0, then the minimum with 1.0), then square. -/
def sqClamp (a : EReal) : EReal :=
  min (Ideal.ofBits .f32 0x3F800000#32) (max (Ideal.ofBits .f32 0x00000000#32) a)
    * min (Ideal.ofBits .f32 0x3F800000#32) (max (Ideal.ofBits .f32 0x00000000#32) a)

/-- The pre-activation at row r of the input array x and row h of the weights. -/
def preAct (x : (⟨2, ![16384, 768]⟩ : Shape).Idx → EReal) (w : (⟨2, ![1024, 768]⟩ : Shape).Idx → EReal)
    (b : (⟨1, ![1024]⟩ : Shape).Idx → EReal) (r : Fin 16384) (h : Fin 1024) : EReal :=
  (∑ k : Fin 768, x (ix2 r k) * w (ix2 h k)) + b (ix1 h)

/-- Row r's logit: the two input arrays' squared clamped pre-activations against the two halves of the output weight
    row, plus the output bias. -/
def logit (xs xn : (⟨2, ![16384, 768]⟩ : Shape).Idx → EReal) (w : (⟨2, ![1024, 768]⟩ : Shape).Idx → EReal)
    (b : (⟨1, ![1024]⟩ : Shape).Idx → EReal) (u : (⟨2, ![1, 2048]⟩ : Shape).Idx → EReal)
    (c : (⟨1, ![1]⟩ : Shape).Idx → EReal) (r : Fin 16384) : EReal :=
  (∑ h : Fin 1024, (sqClamp (preAct xs w b r h) * u (ix2 (0 : Fin 1) (lo h))
      + sqClamp (preAct xn w b r h) * u (ix2 (0 : Fin 1) (hi h)))) + c (ix1 (0 : Fin 1))

/-- The result array: the logistic function of each row's logit. -/
def result (xs xn : (⟨2, ![16384, 768]⟩ : Shape).Idx → EReal) (w : (⟨2, ![1024, 768]⟩ : Shape).Idx → EReal)
    (b : (⟨1, ![1024]⟩ : Shape).Idx → EReal) (u : (⟨2, ![1, 2048]⟩ : Shape).Idx → EReal)
    (c : (⟨1, ![1]⟩ : Shape).Idx → EReal) : (⟨2, ![16384, 1]⟩ : Shape).Idx → EReal :=
  fun i => Ideal.logistic (logit xs xn w b u c (i 0))

theorem result_apply (xs xn : (⟨2, ![16384, 768]⟩ : Shape).Idx → EReal) (w : (⟨2, ![1024, 768]⟩ : Shape).Idx → EReal)
    (b : (⟨1, ![1024]⟩ : Shape).Idx → EReal) (u : (⟨2, ![1, 2048]⟩ : Shape).Idx → EReal)
    (c : (⟨1, ![1]⟩ : Shape).Idx → EReal) (r : Fin 16384) (q : Fin 1) :
    result xs xn w b u c (ix2 r q) = Ideal.logistic (logit xs xn w b u c r) := rfl

end Cert.Spec

end
-- ==== Proof.Payload.lean ====
/-
  The kernel body's arithmetic, read at one index of its block of 2048 rows.

  From the loaded blocks — the weights w (1024 × 768), the bias row b (1 × 1024), the two input blocks xs, xn
  (2048 × 768), the two rows u0, u1 (1 × 1024 each) of the output weights and the 1 × 1 output bias c — the body forms,
  at row p of the block,
      logistic( ∑ h < 1024, ( sq(∑ k < 768, xs[p,k]·w[h,k] + b[0,h]) · u0[0,h] + sq(∑ k < 768, xn[p,k]·w[h,k] + b[0,h]) · u1[0,h] ) + c[0,0] ).
  The matrix product into a zero accumulator is the plain sum over the contracted axis; the lane reduction over axis 1
  is the sum over that axis; the casts and broadcasts only re-index.
-/
import proofs.«171854_g57672820851425_pilotgen1_545_6_alg».proof.Proof.Gen.KernelIdeal.Skeleton
import proofs.«171854_g57672820851425_pilotgen1_545_6_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec

/-! ## The matrix product at an entry -/

theorem lhs_ax0 (i : S2048x1024.Idx) (q : dot_S2048x768_S1024x768_S2048x1024_1_1_0_0_n_n.contr.Idx) :
    (dot_S2048x768_S1024x768_S2048x1024_1_1_0_0_n_n.lhsIdx i q 0).val = (i 0).val := by
  unfold DotDims.lhsIdx
  rw [dif_neg (show ¬(0 : Fin S2048x768.rank) ∈ dot_S2048x768_S1024x768_S2048x1024_1_1_0_0_n_n.lhsBatch by decide), dif_pos (show (0 : Fin S2048x768.rank) ∈ dot_S2048x768_S1024x768_S2048x1024_1_1_0_0_n_n.lhsNonContracting by decide)]
  rfl
theorem lhs_ax1 (i : S2048x1024.Idx) (q : dot_S2048x768_S1024x768_S2048x1024_1_1_0_0_n_n.contr.Idx) :
    (dot_S2048x768_S1024x768_S2048x1024_1_1_0_0_n_n.lhsIdx i q 1).val = (q ⟨0, by decide⟩).val :=
  dot_S2048x768_S1024x768_S2048x1024_1_1_0_0_n_n.lhsIdx_val_of_single rfl i q
theorem rhs_ax0 (i : S2048x1024.Idx) (q : dot_S2048x768_S1024x768_S2048x1024_1_1_0_0_n_n.contr.Idx) :
    (dot_S2048x768_S1024x768_S2048x1024_1_1_0_0_n_n.rhsIdx i q 0).val = (i 1).val := by
  unfold DotDims.rhsIdx
  rw [dif_neg (show ¬(0 : Fin S1024x768.rank) ∈ dot_S2048x768_S1024x768_S2048x1024_1_1_0_0_n_n.rhsBatch by decide), dif_pos (show (0 : Fin S1024x768.rank) ∈ dot_S2048x768_S1024x768_S2048x1024_1_1_0_0_n_n.rhsNonContracting by decide)]
  rfl
theorem rhs_ax1 (i : S2048x1024.Idx) (q : dot_S2048x768_S1024x768_S2048x1024_1_1_0_0_n_n.contr.Idx) :
    (dot_S2048x768_S1024x768_S2048x1024_1_1_0_0_n_n.rhsIdx i q 1).val = (q ⟨0, by decide⟩).val :=
  dot_S2048x768_S1024x768_S2048x1024_1_1_0_0_n_n.rhsIdx_val_of_single rfl i q

/-- Entry (p, h) of x · wᵀ accumulated into zero is ∑ k, x[p,k] · w[h,k]. -/
theorem matmul_at (x : FVec Ideal S2048x768 .f32) (w : FVec Ideal S1024x768 .f32) (p : Fin 2048) (h : Fin 1024) :
    matmul dot_S2048x768_S1024x768_S2048x1024_1_1_0_0_n_n none x w (constant S2048x1024 .f32 0x00000000#32) (ix2 p h)
      = ∑ k : Fin 768, x (ix2 p k) * w (ix2 h k) := by
  simp only [matmul]
  rw [Ideal.matmul_constant_zero_apply, ← Equiv.sum_comp (contrEquiv1 dot_S2048x768_S1024x768_S2048x1024_1_1_0_0_n_n 768 rfl rfl).symm]
  refine Finset.sum_congr rfl fun k _ => ?_
  have hk := contrEquiv1_symm_val dot_S2048x768_S1024x768_S2048x1024_1_1_0_0_n_n 768 rfl rfl k
  have el : dot_S2048x768_S1024x768_S2048x1024_1_1_0_0_n_n.lhsIdx (ix2 p h) ((contrEquiv1 dot_S2048x768_S1024x768_S2048x1024_1_1_0_0_n_n 768 rfl rfl).symm k) = ix2 p k := funext fun a => Fin.ext (by
    match a with
    | ⟨0, _⟩ => exact lhs_ax0 _ _
    | ⟨1, _⟩ => exact (lhs_ax1 _ _).trans hk)
  have er : dot_S2048x768_S1024x768_S2048x1024_1_1_0_0_n_n.rhsIdx (ix2 p h) ((contrEquiv1 dot_S2048x768_S1024x768_S2048x1024_1_1_0_0_n_n 768 rfl rfl).symm k) = ix2 h k := funext fun a => Fin.ext (by
    match a with
    | ⟨0, _⟩ => exact rhs_ax0 _ _
    | ⟨1, _⟩ => exact (rhs_ax1 _ _).trans hk)
  rw [el, er]

/-! ## The re-indexing operations -/

/-- A column of 2048 cast to 2048 × 1 reads, at (p, q), the column at p. -/
theorem col_cast (y : FVec Ideal S2048 .f32) (p : Fin 2048) (q : Fin 1) :
    shapeCast S2048x1 y shapeCasts_S2048_S2048x1 (ix2 p q) = y (ix1 p) :=
  shapeCast_apply y shapeCasts_S2048_S2048x1 _ _ (by
    have hq : q.val = 0 := by omega
    rw [Shape.rowMajor_val_two, Shape.rowMajor_val_one]
    show p.val = p.val * 1 + q.val
    rw [hq, Nat.mul_one, Nat.add_zero])

/-- The sum over axis 1 of a 2048 × 1024 array, at p, is ∑ c < 1024 of row p. -/
theorem lane_sum (src : FVec Ideal S2048x1024 .f32) (h : S2048x1024.Reduces [1] S2048) (hφ : FKind.Formats .f32)
    (hacc : (0x00000000#32 : BitVec 32) = FKind.add.neutral .f32 hφ) (p : Fin 2048) :
    multiReduction .add [1] S2048 src 0x00000000#32 h hφ hacc (ix1 p) = ∑ c : Fin 1024, src (ix2 p c) := by
  refine (Ideal.multiReduction_add_single src 0x00000000#32 h hφ hacc (ix1 p)).trans ?_
  refine Finset.sum_congr rfl fun c _ => congrArg src ?_
  funext a
  match a with
  | ⟨0, _⟩ => exact Fin.ext rfl
  | ⟨1, _⟩ => exact Fin.ext rfl

/-- A 1 × 1024 row (cast to its own shape) broadcast over 2048 rows reads, at (p, c), the row at c. -/
theorem row_bcast (y : FVec Ideal S1x1024 .f32) (p : Fin 2048) (c : Fin 1024) :
    broadcastTo S2048x1024 (shapeCast S1x1024 y shapeCasts_S1x1024_S1x1024) broadcasts_S1x1024_S2048x1024 (ix2 p c)
      = y (ix2 (0 : Fin 1) c) := by
  rw [shapeCast_self]
  exact broadcastTo_1b_ab_apply y broadcasts_S1x1024_S2048x1024 p c

/-- The one entry of a 1 × 1 array. -/
theorem extract_one (y : FVec Ideal S1x1 .f32) : extractAt ![0, 0] y inpos_S1x1_p0_0 = y (ix2 (0 : Fin 1) (0 : Fin 1)) := by
  unfold extractAt
  refine congrArg y (funext fun a => ?_)
  match a with
  | ⟨0, _⟩ => exact Fin.ext rfl
  | ⟨1, _⟩ => exact Fin.ext rfl

/-! ## The payload at (p, q) -/

/-- The clamped, squared pre-activation the body forms at (p, h) from an input block x. -/
theorem hidden_at (x : FVec Ideal S2048x768 .f32) (w : FVec Ideal S1024x768 .f32) (b : FVec Ideal S1x1024 .f32)
    (p : Fin 2048) (h : Fin 1024) :
    mulf (minimumf (broadcast S2048x1024 (Scalar.ofBits (F := Ideal) .f32 0x3F800000#32))
        (maximumf (broadcast S2048x1024 (Scalar.ofBits (F := Ideal) .f32 0x00000000#32))
          (addf (matmul dot_S2048x768_S1024x768_S2048x1024_1_1_0_0_n_n none x w (constant S2048x1024 .f32 0x00000000#32))
            (broadcastTo S2048x1024 (shapeCast S1x1024 b shapeCasts_S1x1024_S1x1024) broadcasts_S1x1024_S2048x1024))))
      (minimumf (broadcast S2048x1024 (Scalar.ofBits (F := Ideal) .f32 0x3F800000#32))
        (maximumf (broadcast S2048x1024 (Scalar.ofBits (F := Ideal) .f32 0x00000000#32))
          (addf (matmul dot_S2048x768_S1024x768_S2048x1024_1_1_0_0_n_n none x w (constant S2048x1024 .f32 0x00000000#32))
            (broadcastTo S2048x1024 (shapeCast S1x1024 b shapeCasts_S1x1024_S1x1024) broadcasts_S1x1024_S2048x1024)))) (ix2 p h)
      = sqClamp ((∑ k : Fin 768, x (ix2 p k) * w (ix2 h k)) + b (ix2 (0 : Fin 1) h)) := by
  show sqClamp (matmul dot_S2048x768_S1024x768_S2048x1024_1_1_0_0_n_n none x w (constant S2048x1024 .f32 0x00000000#32) (ix2 p h)
    + broadcastTo S2048x1024 (shapeCast S1x1024 b shapeCasts_S1x1024_S1x1024) broadcasts_S1x1024_S2048x1024 (ix2 p h)) = _
  rw [matmul_at, row_bcast]

/-- The body's result at row p of its block, from its loaded blocks. -/
theorem pay_apply (w : FVec Ideal S1024x768 .f32) (b : FVec Ideal S1x1024 .f32) (xs xn : FVec Ideal S2048x768 .f32)
    (u0 u1 : FVec Ideal S1x1024 .f32) (c : FVec Ideal S1x1 .f32) (p : Fin 2048) (q : Fin 1) :
    k0_pay1 (F := Ideal) w b xs xn u0 u1 c (ix2 p q)
      = Ideal.logistic ((∑ h : Fin 1024,
          (sqClamp ((∑ k : Fin 768, xs (ix2 p k) * w (ix2 h k)) + b (ix2 (0 : Fin 1) h)) * u0 (ix2 (0 : Fin 1) h)
            + sqClamp ((∑ k : Fin 768, xn (ix2 p k) * w (ix2 h k)) + b (ix2 (0 : Fin 1) h)) * u1 (ix2 (0 : Fin 1) h)))
          + c (ix2 (0 : Fin 1) (0 : Fin 1))) := by
  unfold k0_pay1
  show Ideal.logistic (shapeCast S2048x1 (multiReduction (F := Ideal) .add [1] S2048 _ 0x00000000#32 reduces_S2048x1024_S2048 (.inl rfl) rfl)
      shapeCasts_S2048_S2048x1 (ix2 p q) + extractAt ![0, 0] c inpos_S1x1_p0_0) = _
  refine congrArg Ideal.logistic (congrArg₂ (· + ·) ?_ (extract_one c))
  refine (col_cast _ p q).trans ((lane_sum _ _ _ _ p).trans (Finset.sum_congr rfl fun h _ => ?_))
  exact congrArg₂ (· + ·) (congrArg₂ (· * ·) (hidden_at xs w b p h) (row_bcast u0 p h))
    (congrArg₂ (· * ·) (hidden_at xn w b p h) (row_bcast u1 p h))

end Cert.KernelIdeal.Payload

end
-- ==== Proof.ArrayValue.lean ====
/-
  The kernel's result array after its run is the specification's `result` of the argument arrays.

  At grid point t the body sees rows 2048·t … 2048·t + 2047 of the two input arrays and the whole of the weights, the
  bias row, the two output weight rows and the output bias; it writes back rows 2048·t … of the result.  The three
  small arrays reach the region through reshapes: the bias [1024] as [1, 1024], the output weight row [1, 2048] as
  [2, 1024] — row 0 its first 1024 entries, row 1 its last 1024 — and the output bias [1] as [1, 1].  So what point t
  writes at row p of its block is `result` at row 2048·t + p, the eight blocks cover the 16384 rows, and the array ends
  holding `result`.
-/
import proofs.«171854_g57672820851425_pilotgen1_545_6_alg».proof.Proof.Gen.KernelIdeal.Value
import proofs.«171854_g57672820851425_pilotgen1_545_6_alg».proof.Proof.Payload
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.Spec Cert.KernelIdeal.Payload
open Idealize.ShloMosaic.Pipeline (Dat)

/-! ## What the body leaves in its output block, at an index -/

theorem hz : (![0, 0] : Fin 2 → Nat) = fun _ => 0 := funext fun a => by fin_cases a <;> rfl

/-- The load of row 0 of the 2 × 1024 block. -/
theorem ld_row0 (x4 : Vec Ideal S2x1024 .f32) (h : Fin 1024) :
    View.ld (Val := Elt Ideal) x4 r0_3 (ix2 (0 : Fin 1) h) = x4 (ix2 (0 : Fin 2) h) :=
  congrArg x4 (funext fun a => match a with
    | ⟨0, _⟩ => Fin.ext (by show 0 + 1 * 0 = 0; rfl)
    | ⟨1, _⟩ => Fin.ext (by show 0 + 1 * h.val = h.val; omega))

/-- The load of row 1 of the 2 × 1024 block. -/
theorem ld_row1 (x4 : Vec Ideal S2x1024 .f32) (h : Fin 1024) :
    View.ld (Val := Elt Ideal) x4 r0_4 (ix2 (0 : Fin 1) h) = x4 (ix2 (1 : Fin 2) h) :=
  congrArg x4 (funext fun a => match a with
    | ⟨0, _⟩ => Fin.ext (by show 1 + 1 * 0 = 1; rfl)
    | ⟨1, _⟩ => Fin.ext (by show 0 + 1 * h.val = h.val; omega))

/-- Row p of the output block, from the six input blocks. -/
theorem out_apply (x0 x1 : Vec Ideal S2048x768 .f32) (x2 : Vec Ideal S1024x768 .f32) (x3 : Vec Ideal S1x1024 .f32)
    (x4 : Vec Ideal S2x1024 .f32) (x5 : Vec Ideal S1x1 .f32) (p : Fin 2048) (q : Fin 1) :
    out0_6 (F := Ideal) x0 x1 x2 x3 x4 x5 (ix2 p q)
      = Ideal.logistic ((∑ h : Fin 1024,
          (sqClamp ((∑ k : Fin 768, x0 (ix2 p k) * x2 (ix2 h k)) + x3 (ix2 (0 : Fin 1) h)) * x4 (ix2 (0 : Fin 2) h)
            + sqClamp ((∑ k : Fin 768, x1 (ix2 p k) * x2 (ix2 h k)) + x3 (ix2 (0 : Fin 1) h)) * x4 (ix2 (1 : Fin 2) h)))
          + x5 (ix2 (0 : Fin 1) (0 : Fin 1))) := by
  unfold out0_6
  rw [View.canon_unit_zero hz]
  simp only [View.ld_unit_zero (S := S1024x768) hz, View.ld_unit_zero (S := S1x1024) hz, View.ld_unit_zero (S := S2048x768) hz,
    View.ld_unit_zero (S := S1x1) hz]
  show k0_pay1 (F := Ideal) x2 x3 x0 x1 (View.ld (Val := Elt Ideal) x4 r0_3) (View.ld (Val := Elt Ideal) x4 r0_4) x5 (ix2 p q) = _
  refine (pay_apply x2 x3 x0 x1 (View.ld (Val := Elt Ideal) x4 r0_3) (View.ld (Val := Elt Ideal) x4 r0_4) x5 p q).trans ?_
  refine congrArg Ideal.logistic (congrArg₂ (· + ·) (Finset.sum_congr rfl fun h _ => ?_) rfl)
  rw [ld_row0, ld_row1]

/-! ## The three reshapes before the region, read at an index -/

/-- The bias [1024] as [1, 1024]. -/
theorem bias_cast (a3 : S1024.Idx → EReal) (h : Fin 1024) :
    shapeCast S1x1024 a3 shapeCasts_S1024_S1x1024 (ix2 (0 : Fin 1) h) = a3 (ix1 h) :=
  shapeCast_a_1a_apply a3 shapeCasts_S1024_S1x1024 0 h

/-- The output weight row [1, 2048] as [2, 1024]: row 0 is its first half. -/
theorem weights_cast_row0 (a4 : S1x2048.Idx → EReal) (h : Fin 1024) :
    shapeCast S2x1024 a4 shapeCasts_S1x2048_S2x1024 (ix2 (0 : Fin 2) h) = a4 (ix2 (0 : Fin 1) (lo h)) :=
  shapeCast_apply a4 shapeCasts_S1x2048_S2x1024 _ _ (by
    rw [Shape.rowMajor_val_two, Shape.rowMajor_val_two]
    show 0 * 2048 + h.val = 0 * 1024 + h.val
    omega)

/-- … and row 1 its second half. -/
theorem weights_cast_row1 (a4 : S1x2048.Idx → EReal) (h : Fin 1024) :
    shapeCast S2x1024 a4 shapeCasts_S1x2048_S2x1024 (ix2 (1 : Fin 2) h) = a4 (ix2 (0 : Fin 1) (hi h)) :=
  shapeCast_apply a4 shapeCasts_S1x2048_S2x1024 _ _ (by
    rw [Shape.rowMajor_val_two, Shape.rowMajor_val_two]
    show 0 * 2048 + (1024 + h.val) = 1 * 1024 + h.val
    omega)

/-- The output bias [1] as [1, 1]. -/
theorem obias_cast (a5 : S1.Idx → EReal) :
    shapeCast S1x1 a5 shapeCasts_S1_S1x1 (ix2 (0 : Fin 1) (0 : Fin 1)) = a5 (ix1 (0 : Fin 1)) :=
  shapeCast_a_1a_apply a5 shapeCasts_S1_S1x1 0 0

/-! ## One row of one block, against the specification -/

/-- If a block's rows are rows of the arrays (row p of each input block is row r of its array, the other four blocks
    are the whole weights and the three reshaped small arrays), the body's result at row p is `result` at row r. -/
theorem row_value (a0 a1 : S16384x768.Idx → EReal) (a2 : S1024x768.Idx → EReal) (a3 : S1024.Idx → EReal)
    (a4 : S1x2048.Idx → EReal) (a5 : S1.Idx → EReal)
    (x0 x1 : Vec Ideal S2048x768 .f32) (x2 : Vec Ideal S1024x768 .f32) (x3 : Vec Ideal S1x1024 .f32)
    (x4 : Vec Ideal S2x1024 .f32) (x5 : Vec Ideal S1x1 .f32) (r : Fin 16384) (p : Fin 2048) (q : Fin 1)
    (e0 : ∀ k : Fin 768, x0 (ix2 p k) = a0 (ix2 r k)) (e1 : ∀ k : Fin 768, x1 (ix2 p k) = a1 (ix2 r k))
    (e2 : x2 = a2) (e3 : x3 = shapeCast S1x1024 a3 shapeCasts_S1024_S1x1024)
    (e4 : x4 = shapeCast S2x1024 a4 shapeCasts_S1x2048_S2x1024) (e5 : x5 = shapeCast S1x1 a5 shapeCasts_S1_S1x1) :
    out0_6 (F := Ideal) x0 x1 x2 x3 x4 x5 (ix2 p q) = result a0 a1 a2 a3 a4 a5 (ix2 r q) := by
  subst e2 e3 e4 e5
  rw [out_apply, result_apply]
  unfold logit preAct
  simp only [e0, e1, bias_cast, weights_cast_row0, weights_cast_row1, obias_cast]

variable (m : (ℓ : Loc nD τ sig) → Buf (Elt Ideal) ℓ) (ρ : Dev nD → PrngReg)

/-! ## The arrays as the region finds them -/

theorem V_bias (c : Dev nD) :
    (V m c main_v0 : S1x1024.Idx → EReal) = shapeCast S1x1024 (m ((c : Thread nD τ).loc main_arg3)) shapeCasts_S1024_S1x1024 := by
  dsimp only [Gen.V, Gen.hostOps0]; after_results; rfl

theorem V_weights (c : Dev nD) :
    (V m c main_v1 : S2x1024.Idx → EReal) = shapeCast S2x1024 (m ((c : Thread nD τ).loc main_arg4)) shapeCasts_S1x2048_S2x1024 := by
  dsimp only [Gen.V, Gen.hostOps0]; after_results; rfl

theorem V_obias (c : Dev nD) :
    (V m c main_v2 : S1x1.Idx → EReal) = shapeCast S1x1 (m ((c : Thread nD τ).loc main_arg5)) shapeCasts_S1_S1x1 := by
  dsimp only [Gen.V, Gen.hostOps0]; after_results; rfl

/-! ## The windows' blocks -/

/-- The printed index maps over the eight grid points: windows 0, 1 and 6 move down one block of rows per point;
    windows 2 to 5 stay on their whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_eight (t : Fin cfg0.N) : t.val < 8 := by
  have h : cfg0.N = 8 := N_0
  have := t.isLt
  omega

/-- Row p of point t's block of the first input array is row 2048·t + p of the array. -/
theorem blk_first (c : Dev nD) (t : Fin cfg0.N) (p : Fin 2048) (k : Fin 768) (r : Fin 16384) (hr : r.val = 2048 * t.val + p.val) :
    iblk m c 0 t (ix2 p k) = V m c main_arg0 (ix2 r k) := by
  obtain ⟨h0, h1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 768 + 1 * k.val = k.val; omega

/-- The same for the second input array. -/
theorem blk_second (c : Dev nD) (t : Fin cfg0.N) (p : Fin 2048) (k : Fin 768) (r : Fin 16384) (hr : r.val = 2048 * t.val + p.val) :
    iblk m c 1 t (ix2 p k) = V m c main_arg1 (ix2 r k) := by
  obtain ⟨-, -, h0, h1, -⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 2048 + 1 * p.val = r.val; omega
  | ⟨1, _⟩ => show win0_1.index t (1 : Fin 2) * 768 + 1 * k.val = k.val; omega

/-- Window 2's block is the whole weight matrix. -/
theorem blk_weights (c : Dev nD) (t : Fin cfg0.N) : (iblk m c 2 t : S1024x768.Idx → EReal) = V m c main_arg2 := by
  obtain ⟨-, -, -, -, h0, h1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1024 + 1 * (y 0).val = (y 0).val; omega
  | ⟨1, _⟩ => show win0_2.index t (1 : Fin 2) * 768 + 1 * (y 1).val = (y 1).val; omega

/-- Window 3's block is the whole reshaped bias. -/
theorem blk_bias (c : Dev nD) (t : Fin cfg0.N) : (iblk m c 3 t : S1x1024.Idx → EReal) = V m c main_v0 := by
  obtain ⟨-, -, -, -, -, -, h0, h1, -⟩ := idx_facts t
  funext y
  show V m c main_v0 (((cfg0.win 3).blk t).view.emb y) = V m c main_v0 y
  refine congrArg (V m c main_v0) (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- Window 4's block is the whole reshaped output weights. -/
theorem blk_oweights (c : Dev nD) (t : Fin cfg0.N) : (iblk m c 4 t : S2x1024.Idx → EReal) = V m c main_v1 := by
  obtain ⟨-, -, -, -, -, -, -, -, h0, h1, -⟩ := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 2 + 1 * (y 0).val = (y 0).val; omega
  | ⟨1, _⟩ => show win0_4.index t (1 : Fin 2) * 1024 + 1 * (y 1).val = (y 1).val; omega

/-- Window 5's block is the whole reshaped output bias. -/
theorem blk_obias (c : Dev nD) (t : Fin cfg0.N) : (iblk m c 5 t : S1x1.Idx → EReal) = V m c main_v2 := by
  obtain ⟨-, -, -, -, -, -, -, -, -, -, h0, h1, -⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 2) * 1 + 1 * (y 0).val = (y 0).val; omega
  | ⟨1, _⟩ => show win0_5.index t (1 : Fin 2) * 1 + 1 * (y 1).val = (y 1).val; omega

/-! ## What a point writes back, the cover, and the array after the run -/

/-- WHAT POINT t WRITES BACK is block t of `result` of the argument arrays. -/
theorem flushed_eq (c : Dev nD) (t : Fin cfg0.N) :
    (dats m 0 c).flushed 6 t = ((cfg0.win 6).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext j
  obtain ⟨p, q, rfl⟩ : ∃ (p : Fin 2048) (q : Fin 1), j = ix2 p q := ⟨j 0, j 1, eq_ix2 j⟩
  have ht := lt_eight t
  obtain ⟨-, -, -, -, -, -, -, -, -, -, -, -, h60, h61⟩ := idx_facts t
  have hemb : ((cfg0.win 6).blk t).view.emb (ix2 p q) = ix2 (⟨2048 * t.val + p.val, by omega⟩ : Fin 16384) q :=
    funext fun a => Fin.ext (by
      match a with
      | ⟨0, _⟩ => show win0_6.index t (0 : Fin 2) * 2048 + 1 * p.val = 2048 * t.val + p.val; omega
      | ⟨1, _⟩ => show win0_6.index t (1 : Fin 2) * 1 + 1 * q.val = q.val; omega)
  show out0_6 (iblk m c 0 t) (iblk m c 1 t) (iblk m c 2 t) (iblk m c 3 t) (iblk m c 4 t) (iblk m c 5 t) (ix2 p q)
    = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb (ix2 p q))
  rw [hemb]
  exact row_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) ⟨2048 * t.val + p.val, by omega⟩ p q
    (fun k => (blk_first m c t p k _ rfl).trans (congrFun (V_main_arg0 m c) _))
    (fun k => (blk_second m c t p k _ rfl).trans (congrFun (V_main_arg1 m c) _))
    ((blk_weights m c t).trans (V_main_arg2 m c))
    ((blk_bias m c t).trans (V_bias m c))
    ((blk_oweights m c t).trans (V_weights m c))
    ((blk_obias m c t).trans (V_obias m c))

/-- An index of the result array is in point t's block iff each coordinate is in the block's range on its axis. -/
theorem mem_blk (t : Fin cfg0.N) (i : S16384x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v3).slice (win0_6.rect t)).set ↔ _
  rw [View.set_slice_whole, Rect.mem_set_unit]
  exact Iff.rfl

/-- Row i of the result is in the block of point i / 2048. -/
theorem cover (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, -, -, -, -, -, -, -, -, h60, h61⟩ := idx_facts t
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 1 ≤ (i 1).val ∧ (i 1).val < win0_6.index t (1 : Fin 2) * 1 + 1; omega

/-- THE ARRAY after the run is `result` of the argument arrays. -/
theorem final (c : Dev nD) : (dats m 0 c).arrAt 6 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run: it terminates with the result array at `result` of the arguments, the arguments unchanged. -/
theorem run : θ_run defs (onTc (τ := τ) (main (F := Ideal))) ⟨m, fun _ => 0, ρ⟩ fun r => ∀ c : Dev nD,
      r.2.mem ((c : Thread nD τ).loc main_v3) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefValue.lean ====
/-
  The reference's result, read one operation at a time, is the specification's `result`.

  Its two matrix products and bias adds are the pre-activations of the two input arrays; the concatenation lays them
  side by side, so entry k < 1024 of a row of 2048 is the first array's pre-activation at k and entry 1024 + h the
  second's at h; the clamp and the square act entrywise; the product with the output weight row is a sum over the
  2048 entries, which splits into the sum of pairs (`Spec.sum_two_halves`); and 1 / (1 + exp (−x)) is the logistic
  function of x on the extended reals.
-/
import proofs.«171854_g57672820851425_pilotgen1_545_6_alg».proof.Proof.Gen.ReferenceIdeal.Read
import proofs.«171854_g57672820851425_pilotgen1_545_6_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-! ## The index functions of the stages, at an index given by coordinates -/

theorem lidx0 (r : Fin 16384) (h : Fin 1024) (k : Fin 768) : lidx_main_v0 (ix2 r h) k = ix2 r k :=
  funext fun a => match a with | ⟨0, _⟩ => rfl | ⟨1, _⟩ => rfl
theorem ridx0 (r : Fin 16384) (h : Fin 1024) (k : Fin 768) : ridx_main_v0 (ix2 r h) k = ix2 h k :=
  funext fun a => match a with | ⟨0, _⟩ => rfl | ⟨1, _⟩ => rfl
theorem bidx0 (r : Fin 16384) (h : Fin 1024) : idx_main_v1 (idx_main_v2 (ix2 r h)) = ix1 h :=
  funext fun a => match a with | ⟨0, _⟩ => rfl
theorem lidx4 (r : Fin 16384) (h : Fin 1024) (k : Fin 768) : lidx_main_v4 (ix2 r h) k = ix2 r k :=
  funext fun a => match a with | ⟨0, _⟩ => rfl | ⟨1, _⟩ => rfl
theorem ridx4 (r : Fin 16384) (h : Fin 1024) (k : Fin 768) : ridx_main_v4 (ix2 r h) k = ix2 h k :=
  funext fun a => match a with | ⟨0, _⟩ => rfl | ⟨1, _⟩ => rfl
theorem bidx4 (r : Fin 16384) (h : Fin 1024) : idx_main_v5 (idx_main_v6 (ix2 r h)) = ix1 h :=
  funext fun a => match a with | ⟨0, _⟩ => rfl
theorem lidx11 (r : Fin 16384) (q : Fin 1) (k : Fin 2048) : lidx_main_v11 (ix2 r q) k = ix2 r k :=
  funext fun a => match a with | ⟨0, _⟩ => rfl | ⟨1, _⟩ => rfl
theorem ridx11 (r : Fin 16384) (q : Fin 1) (k : Fin 2048) : ridx_main_v11 (ix2 r q) k = ix2 q k :=
  funext fun a => match a with | ⟨0, _⟩ => rfl | ⟨1, _⟩ => rfl
theorem cidx (r : Fin 16384) (q : Fin 1) : idx_main_v12 (idx_main_v13 (ix2 r q)) = ix1 (0 : Fin 1) :=
  funext fun a => match a with | ⟨0, _⟩ => rfl

/-! ## The pre-activations -/

/-- The first product plus the bias, at (r, h). -/
theorem pre_first (x0 : (⟨S16384x768, .f32⟩ : BufTy).Contents (Elt Ideal)) (x2 : (⟨S1024x768, .f32⟩ : BufTy).Contents (Elt Ideal))
    (x3 : (⟨S1024, .f32⟩ : BufTy).Contents (Elt Ideal)) (r : Fin 16384) (h : Fin 1024) :
    val_main_v3 (F := Ideal) x0 x2 x3 (ix2 r h) = preAct x0 x2 x3 r h := by
  rw [val_main_v3_apply, val_main_v0_apply, val_main_v2_apply, val_main_v1_apply]
  simp only [lidx0, ridx0, bidx0]
  rfl

/-- The second product plus the bias, at (r, h). -/
theorem pre_second (x1 : (⟨S16384x768, .f32⟩ : BufTy).Contents (Elt Ideal)) (x2 : (⟨S1024x768, .f32⟩ : BufTy).Contents (Elt Ideal))
    (x3 : (⟨S1024, .f32⟩ : BufTy).Contents (Elt Ideal)) (r : Fin 16384) (h : Fin 1024) :
    val_main_v7 (F := Ideal) x1 x2 x3 (ix2 r h) = preAct x1 x2 x3 r h := by
  rw [val_main_v7_apply, val_main_v4_apply, val_main_v6_apply, val_main_v5_apply]
  simp only [lidx4, ridx4, bidx4]
  rfl

/-! ## The concatenation, read at the two halves of a row -/

/-- Entry h < 1024 of row r of the concatenation is the first array's pre-activation at (r, h). -/
theorem cat_lo (x0 x1 : (⟨S16384x768, .f32⟩ : BufTy).Contents (Elt Ideal)) (x2 : (⟨S1024x768, .f32⟩ : BufTy).Contents (Elt Ideal))
    (x3 : (⟨S1024, .f32⟩ : BufTy).Contents (Elt Ideal)) (r : Fin 16384) (h : Fin 1024) :
    val_main_v8 (F := Ideal) x0 x1 x2 x3 (ix2 r (lo h)) = preAct x0 x2 x3 r h := by
  unfold val_main_v8
  refine (concatenate_pair_apply_left _ _ _ concatenates_S16384x1024_S16384x1024_S16384x2048_d1 (ix2 r (lo h)) rfl (ix2 r h)
    (fun b => ?_)).trans (pre_first x0 x2 x3 r h)
  match b with
  | ⟨0, _⟩ => rfl
  | ⟨1, _⟩ => rfl

/-- Entry 1024 + h of row r of the concatenation is the second array's pre-activation at (r, h). -/
theorem cat_hi (x0 x1 : (⟨S16384x768, .f32⟩ : BufTy).Contents (Elt Ideal)) (x2 : (⟨S1024x768, .f32⟩ : BufTy).Contents (Elt Ideal))
    (x3 : (⟨S1024, .f32⟩ : BufTy).Contents (Elt Ideal)) (r : Fin 16384) (h : Fin 1024) :
    val_main_v8 (F := Ideal) x0 x1 x2 x3 (ix2 r (hi h)) = preAct x1 x2 x3 r h := by
  unfold val_main_v8
  refine (concatenate_pair_apply_right _ _ _ concatenates_S16384x1024_S16384x1024_S16384x2048_d1 (ix2 r (hi h)) rfl rfl (ix2 r h)
    (fun b hb => ?_) ?_).trans (pre_second x1 x2 x3 r h)
  · match b, hb with
    | ⟨0, _⟩, _ => rfl
    | ⟨1, _⟩, hb => exact absurd rfl hb
  · show h.val + 1024 = 1024 + h.val
    omega

/-! ## The clamp and the square, entrywise -/

theorem hidden_apply (x0 x1 : (⟨S16384x768, .f32⟩ : BufTy).Contents (Elt Ideal)) (x2 : (⟨S1024x768, .f32⟩ : BufTy).Contents (Elt Ideal))
    (x3 : (⟨S1024, .f32⟩ : BufTy).Contents (Elt Ideal)) (i : S16384x2048.Idx) :
    val_main_v10 (F := Ideal) x0 x1 x2 x3 i = sqClamp (val_main_v8 (F := Ideal) x0 x1 x2 x3 i) := by
  rw [val_main_v10_apply, val_main_v9_apply, val_main_call0_v2_apply, val_main_call0_v4_apply, val_main_call0_v3_apply,
    val_main_cst_0_apply, val_main_call0_v1_apply, val_main_call0_v0_apply, val_main_cst_apply]
  rfl

/-! ## The logit and the result -/

theorem logit_apply (x0 x1 : (⟨S16384x768, .f32⟩ : BufTy).Contents (Elt Ideal)) (x2 : (⟨S1024x768, .f32⟩ : BufTy).Contents (Elt Ideal))
    (x3 : (⟨S1024, .f32⟩ : BufTy).Contents (Elt Ideal)) (x4 : (⟨S1x2048, .f32⟩ : BufTy).Contents (Elt Ideal))
    (x5 : (⟨S1, .f32⟩ : BufTy).Contents (Elt Ideal)) (r : Fin 16384) (q : Fin 1) :
    val_main_v14 (F := Ideal) x0 x1 x2 x3 x4 x5 (ix2 r q) = logit x0 x1 x2 x3 x4 x5 r := by
  obtain rfl : q = 0 := Subsingleton.elim _ _
  rw [val_main_v14_apply, val_main_v11_apply, val_main_v13_apply, val_main_v12_apply, cidx]
  simp only [lidx11, ridx11]
  rw [sum_two_halves]
  unfold logit
  refine congrArg₂ (· + ·) (Finset.sum_congr rfl fun h _ => ?_) rfl
  rw [hidden_apply, hidden_apply, cat_lo, cat_hi]

/-- The reference's result array is `result` of its arguments. -/
theorem result_eq (x0 x1 : (⟨S16384x768, .f32⟩ : BufTy).Contents (Elt Ideal)) (x2 : (⟨S1024x768, .f32⟩ : BufTy).Contents (Elt Ideal))
    (x3 : (⟨S1024, .f32⟩ : BufTy).Contents (Elt Ideal)) (x4 : (⟨S1x2048, .f32⟩ : BufTy).Contents (Elt Ideal))
    (x5 : (⟨S1, .f32⟩ : BufTy).Contents (Elt Ideal)) :
    val_main_v20 (F := Ideal) x0 x1 x2 x3 x4 x5 = result x0 x1 x2 x3 x4 x5 := by
  funext i
  obtain ⟨r, q, rfl⟩ : ∃ (r : Fin 16384) (q : Fin 1), i = ix2 r q := ⟨i 0, i 1, eq_ix2 i⟩
  rw [val_main_v20_apply, val_main_v19_apply, val_main_cst_2_apply, val_main_v18_apply, val_main_v17_apply, val_main_cst_1_apply,
    val_main_v16_apply, val_main_v15_apply, logit_apply, result_apply]
  show Ideal.div (Ideal.ofBits .f32 0x3F800000#32) (Ideal.ofBits .f32 0x3F800000#32 + Ideal.exp (-(logit x0 x1 x2 x3 x4 x5 r)))
    = Ideal.div 1 (1 + Ideal.exp (-(logit x0 x1 x2 x3 x4 x5 r)))
  rw [one_word]

end Cert.ReferenceIdeal.RefValue

end
-- ==== Proof.lean ====
/-
  Both programs compute, for every row r of the two input arrays xs, xn,
      logistic( ∑ h < 1024, ( sq(xs[r,·]·w[h,·] + b[h]) · u[h] + sq(xn[r,·]·w[h,·] + b[h]) · u[1024 + h] ) + c ),
  where sq clamps to [0, 1] and squares (`Spec.result`).

  The kernel forms the two products block by block (2048 rows at each of 8 grid points), multiplies the two squared
  activations by the two halves of the output weight row, adds the pair and sums over the 1024 columns
  (`ArrayValue.run`).  The reference lays the two pre-activation arrays side by side, clamps, squares, and takes the
  product with the whole output weight row, a sum over 2048 entries (`RefValue.result_eq`).  The two sums are equal
  because a sum over 2048 entries is the sum over h < 1024 of the entries h and 1024 + h — commutativity and
  associativity of addition on the extended reals, which hold without any finiteness — and 1 / (1 + exp(−x)) is the
  logistic function.  The precondition is not used by the value claim.

  The three frames: the two kernels' are the frame runs of their one pipelined region; the reference's is its run with
  the result dropped.  The idealization rewrote nothing, so `preserves` is `True`.
-/
import proofs.«171854_g57672820851425_pilotgen1_545_6_alg».proof.Defs
import proofs.«171854_g57672820851425_pilotgen1_545_6_alg».proof.Proof.Gen.Kernel
import proofs.«171854_g57672820851425_pilotgen1_545_6_alg».proof.Proof.Gen.Kernel.Skeleton
import proofs.«171854_g57672820851425_pilotgen1_545_6_alg».proof.Proof.Gen.Kernel.Launch
import proofs.«171854_g57672820851425_pilotgen1_545_6_alg».proof.Proof.Gen.Kernel.Points
import proofs.«171854_g57672820851425_pilotgen1_545_6_alg».proof.Proof.Gen.Kernel.Frame
import proofs.«171854_g57672820851425_pilotgen1_545_6_alg».proof.Proof.Gen.KernelIdeal
import proofs.«171854_g57672820851425_pilotgen1_545_6_alg».proof.Proof.Gen.KernelIdeal.Skeleton
import proofs.«171854_g57672820851425_pilotgen1_545_6_alg».proof.Proof.Gen.KernelIdeal.Launch
import proofs.«171854_g57672820851425_pilotgen1_545_6_alg».proof.Proof.Gen.KernelIdeal.Points
import proofs.«171854_g57672820851425_pilotgen1_545_6_alg».proof.Proof.Gen.KernelIdeal.Frame
import proofs.«171854_g57672820851425_pilotgen1_545_6_alg».proof.Proof.Gen.ReferenceIdeal
import proofs.«171854_g57672820851425_pilotgen1_545_6_alg».proof.Proof.Gen.Pre_finite_inputs
import proofs.«171854_g57672820851425_pilotgen1_545_6_alg».proof.Proof.Gen.KernelIdeal.Value
import proofs.«171854_g57672820851425_pilotgen1_545_6_alg».proof.Proof.Gen.ReferenceIdeal.Run
import proofs.«171854_g57672820851425_pilotgen1_545_6_alg».proof.Proof.Gen.ReferenceIdeal.Read
import proofs.«171854_g57672820851425_pilotgen1_545_6_alg».proof.Proof.ArrayValue
import proofs.«171854_g57672820851425_pilotgen1_545_6_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments the kernel's result array ends at `Spec.result` of them and so does
    the reference's. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
